-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S50000x128 .f32) (main_arg1 : FVec F S128x256 .f32) (main_arg2 : IVec S800000 32) (main_arg3 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  main_v8
-- ==== Kernel.lean ====
abbrev S50000x128 : Shape := ⟨2, ![50000, 128]⟩
abbrev S128x256 : Shape := ⟨2, ![128, 256]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S5000x128 : Shape := ⟨2, ![5000, 128]⟩
abbrev S5000x256 : Shape := ⟨2, ![5000, 256]⟩

abbrev nBuf : Space → Nat
  | .hbm => 30
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S800000, .i32⟩
  | .hbm, ⟨3, _⟩ => ⟨S800000, .i32⟩
  | .hbm, ⟨4, _⟩ => ⟨S_, .i32⟩
  | .hbm, ⟨5, _⟩ => ⟨S800000, .i32⟩
  | .hbm, ⟨6, _⟩ => ⟨S800000, .i1⟩
  | .hbm, ⟨7, _⟩ => ⟨S_, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S800000x1, .i32⟩
  | .hbm, ⟨12, _⟩ => ⟨S800000x128, .f32⟩
  | .hbm, ⟨13, _⟩ => ⟨S_, .f32⟩
  | .hbm, ⟨14, _⟩ => ⟨S50000x128, .f32⟩
  | .hbm, ⟨15, _⟩ => ⟨S800000x1, .i32⟩
  | .hbm, ⟨16, _⟩ => ⟨S50000x128, .f32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S5000x256, .f32⟩
  | .local _ .vmem, ⟨6, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩

abbrev nBuf : Space → Nat
  | .hbm => 37
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S800000, .i32⟩
  | .hbm, ⟨3, _⟩ => ⟨S800000, .i32⟩
  | .hbm, ⟨4, _⟩ => ⟨S_, .i32⟩
  | .hbm, ⟨5, _⟩ => ⟨S800000, .i32⟩
  | .hbm, ⟨6, _⟩ => ⟨S800000, .i1⟩
  | .hbm, ⟨7, _⟩ => ⟨S_, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S800000x1, .i32⟩
  | .hbm, ⟨12, _⟩ => ⟨S800000x128, .f32⟩
  | .hbm, ⟨13, _⟩ => ⟨S_, .f32⟩
  | .hbm, ⟨14, _⟩ => ⟨S50000x128, .f32⟩
  | .hbm, ⟨15, _⟩ => ⟨S800000x1, .i32⟩
  | .hbm, ⟨16, _⟩ => ⟨S50000x128, .f32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S_, .f32⟩
  | .hbm, ⟨31, _⟩ => ⟨S50000x128, .f32⟩
  | .hbm, ⟨32, _⟩ => ⟨S50000x128, .f32⟩
  | .hbm, ⟨33, _⟩ => ⟨S50000x256, .f32⟩
  | .hbm, ⟨34, _⟩ => ⟨S_, .f32⟩
  | .hbm, ⟨35, _⟩ => ⟨S50000x256, .f32⟩
  | .hbm, ⟨36, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x256 : S_.BroadcastsInDim S50000x256 (![] : Fin 0 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Layer.lean ====
import Idealize.ShloMosaic.PureOps.Ideal
import Idealize.ShloMosaic.Lib.ValueIdx

/-!
  The dense stage of one graph layer, entry by entry. A node's own feature row x(p, ·) and the mean h(p, ·) of its
  in-neighbours' rows are added and halved, the 128 halved features are contracted against the weight matrix w, and
  the result is clipped below at zero:

      out(p, q) = max( Σ_{k < 128} ((x(p, k) + h(p, k)) · ½) · w(k, q), 0 ).

  The row count M is a variable: the same formula describes the whole 50000-row array and one 5000-row block of it,
  and an entry of a block is the entry of the whole array at the block's row (`entry_of_rows`), because row p of the
  output depends on row p of x and of h only.
-/

open scoped BigOperators

noncomputable section

namespace Cert.Layer

open Idealize.ShloMosaic Idealize.ShloMosaic.ValueIdx

/-- The factor one half, as the float word both programs carry. -/
abbrev half : EReal := Ideal.ofBits .f32 0x3F000000#32

/-- The clipping level zero, as the float word both programs carry. -/
abbrev level : EReal := Ideal.ofBits .f32 0x00000000#32

/-- Entry (p, q) of the dense stage: the halved sum of the node's row and its neighbour mean, contracted against
    column q of the weights, clipped below at the level. -/
def entry {M : Nat} (x h : (⟨2, ![M, 128]⟩ : Shape).Idx → EReal) (w : (⟨2, ![128, 256]⟩ : Shape).Idx → EReal)
    (p : Fin M) (q : Fin 256) : EReal :=
  max (∑ k : Fin 128, ((x (ix2 p k) + h (ix2 p k)) * half) * w (ix2 k q)) level

/-- The dense stage as a whole array of M rows. -/
def layer {M : Nat} (x h : (⟨2, ![M, 128]⟩ : Shape).Idx → EReal) (w : (⟨2, ![128, 256]⟩ : Shape).Idx → EReal) :
    (⟨2, ![M, 256]⟩ : Shape).Idx → EReal :=
  fun j => entry x h w (j 0) (j 1)

theorem layer_ix2 {M : Nat} (x h : (⟨2, ![M, 128]⟩ : Shape).Idx → EReal) (w : (⟨2, ![128, 256]⟩ : Shape).Idx → EReal)
    (p : Fin M) (q : Fin 256) : layer x h w (ix2 p q) = entry x h w p q := rfl

/-- Row p of the output reads row p of the two feature arrays only: if x' and h' hold the rows f(p) of x and h, and w'
    the entries of w, an entry computed from x', h' and w' is the entry of x, h and w at row f(p). -/
theorem entry_of_rows {M M' : Nat} (x h : (⟨2, ![M, 128]⟩ : Shape).Idx → EReal)
    (x' h' : (⟨2, ![M', 128]⟩ : Shape).Idx → EReal) (w w' : (⟨2, ![128, 256]⟩ : Shape).Idx → EReal) (f : Fin M' → Fin M)
    (hx : ∀ p k, x' (ix2 p k) = x (ix2 (f p) k)) (hh : ∀ p k, h' (ix2 p k) = h (ix2 (f p) k))
    (hw : ∀ k q, w' (ix2 k q) = w (ix2 k q))
    (p : Fin M') (q : Fin 256) : entry x' h' w' p q = entry x h w (f p) q := by
  unfold entry
  simp only [hx, hh, hw]

end Cert.Layer

end
-- ==== Proof.Payload.lean ====
import proofs.«173911_j46402826666668_1_alg».proof.Proof.Gen.KernelIdeal.Skeleton
import proofs.«173911_j46402826666668_1_alg».proof.Proof.LibPlainDot
import proofs.«173911_j46402826666668_1_alg».proof.Proof.Layer
import Idealize.ShloMosaic.Lib.Pipeline.Value
import Idealize.ShloMosaic.Lib.ValueIdx

/-!
  The kernel body's stored value, read at one entry. From a 5000-row block x of the node features, the matching block h
  of neighbour means and the whole weight matrix w the body computes max(bf16((x + h) · ½) · bf16(w), 0) with the
  product accumulated from zero. At the ideal values the two changes of float format are the identity and a matrix
  product into a zero accumulator is the plain sum over the contracted axis, so entry (p, q) of the stored block is the
  dense stage's entry (p, q) of the block's own 5000 rows.
-/

open scoped BigOperators

noncomputable section

namespace Cert.KernelIdeal.Body

open Cert.KernelIdeal Cert.KernelIdeal.Gen Idealize.ShloMosaic Idealize.ShloMosaic.ValueIdx

/-- Entry (p, q) of the block the body stores is the dense stage's entry (p, q) of the three blocks it loaded. -/
theorem payload_entry (x h : Vec Ideal S5000x128 .f32) (w : Vec Ideal S128x256 .f32) (p : Fin 5000) (q : Fin 256) :
    k0_pay1 (F := Ideal) x h w (ix2 p q) = Cert.Layer.entry x h w p q := by
  have hs : shapeCast S5000x128 h shapeCasts_S5000x128_S5000x128 = h := shapeCast_self h _
  have hmm := Cert.Lib.PlainDot.matmul_zero_apply dot_S5000x128_S128x256_S5000x256_1_0_0_1_n_n rfl rfl rfl rfl rfl rfl none
    (truncf .bf16 (mulf (addf x h) (broadcast S5000x128 (Scalar.ofBits (F := Ideal) .f32 0x3F000000#32))) bitsLt_bf16_f32)
    (truncf .bf16 w bitsLt_bf16_f32) p q
  unfold k0_pay1 Cert.Layer.entry
  rw [hs]
  exact congrArg (fun s => max s Cert.Layer.level) hmm

end Cert.KernelIdeal.Body

end
-- ==== Proof.Blocks.lean ====
import proofs.«173911_j46402826666668_1_alg».proof.Proof.Gen.KernelIdeal.Value
import proofs.«173911_j46402826666668_1_alg».proof.Proof.Payload
import proofs.«173911_j46402826666668_1_alg».proof.Proof.Layer
import Idealize.ShloMosaic.Lib.Pipeline.Value
import Idealize.ShloMosaic.Lib.ValueIdx

/-!
  From blocks to the array. The kernel call runs over ten grid points; point t stages rows 5000·t … 5000·t + 4999 of
  the node features and of the neighbour means, the whole weight matrix, and writes back rows 5000·t … 5000·t + 4999 of
  the result. Row p of the block a point stores is therefore row 5000·t + p of the dense stage of the WHOLE arrays
  (a result row reads its own feature rows only), the ten blocks tile the 50000 rows, and so the result array after
  the call is the dense stage of the three arrays the call found. The block arithmetic is done once for ARBITRARY
  arrays X, H, W and only then read at the arrays the call finds.
-/

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

theorem origin : (![0, 0] : Fin 2 → Nat) = fun _ => 0 := funext fun a => by fin_cases a <;> rfl

/-- The block indices over the ten points: both feature windows move down the rows with the result window, the weight
    window stays at the origin, and the result's row-block index is at most nine. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) ≤ 9 ∧ win0_3.index t (1 : Fin 2) = 0 :=
  (by decide +kernel : ∀ t : Fin grid0.N, _)

/-- Every one of the ten row blocks of the result is some point's. -/
theorem idx_onto : ∀ b : Fin 10, ∃ t : Fin cfg0.N, win0_3.index t = ![b.val, 0] :=
  (by decide +kernel : ∀ b : Fin 10, ∃ t : Fin grid0.N, win0_3.index t = ![b.val, 0])

/-- The row of the whole arrays that row p of point t's blocks is. -/
def row (t : Fin cfg0.N) (p : Fin 5000) : Fin 50000 :=
  ⟨win0_3.index t (0 : Fin 2) * 5000 + p.val, by
    have h := (idx_facts t).2.2.2.2.2.2.1
    have hp := p.isLt
    omega⟩

/-! ## Blocks of arbitrary arrays -/

/-- Row p of the first window's block at point t, of any 50000-row array A, is row `row t p` of A. -/
theorem read0_at (A : Vec Ideal S50000x128 .f32) (t : Fin cfg0.N) (p : Fin 5000) (k : Fin 128) :
    ((cfg0.win 0).blk t).view.read (Elt Ideal) A (ix2 p k) = A (ix2 (row t p) k) := by
  obtain ⟨e0, e1, -⟩ := idx_facts t
  show A (((cfg0.win 0).blk t).view.emb (ix2 p k)) = A (ix2 (row t p) k)
  refine congrArg A (funext fun a => Fin.ext ?_)
  match a with
  | ⟨0, _⟩ => show win0_0.index t (0 : Fin 2) * 5000 + 1 * p.val = win0_3.index t (0 : Fin 2) * 5000 + p.val; omega
  | ⟨1, _⟩ => show win0_0.index t (1 : Fin 2) * 128 + 1 * k.val = k.val; omega

/-- Row p of the second window's block at point t, of any 50000-row array A, is row `row t p` of A. -/
theorem read1_at (A : Vec Ideal S50000x128 .f32) (t : Fin cfg0.N) (p : Fin 5000) (k : Fin 128) :
    ((cfg0.win 1).blk t).view.read (Elt Ideal) A (ix2 p k) = A (ix2 (row t p) k) := by
  obtain ⟨-, -, e2, e3, -⟩ := idx_facts t
  show A (((cfg0.win 1).blk t).view.emb (ix2 p k)) = A (ix2 (row t p) k)
  refine congrArg A (funext fun a => Fin.ext ?_)
  match a with
  | ⟨0, _⟩ => show win0_1.index t (0 : Fin 2) * 5000 + 1 * p.val = win0_3.index t (0 : Fin 2) * 5000 + p.val; omega
  | ⟨1, _⟩ => show win0_1.index t (1 : Fin 2) * 128 + 1 * k.val = k.val; omega

/-- The third window's block at every point, of any weight matrix A, is A itself. -/
theorem read2_at (A : Vec Ideal S128x256 .f32) (t : Fin cfg0.N) (k : Fin 128) (q : Fin 256) :
    ((cfg0.win 2).blk t).view.read (Elt Ideal) A (ix2 k q) = A (ix2 k q) := by
  obtain ⟨-, -, -, -, e4, e5, -⟩ := idx_facts t
  show A (((cfg0.win 2).blk t).view.emb (ix2 k q)) = A (ix2 k q)
  refine congrArg A (funext fun a => Fin.ext ?_)
  match a with
  | ⟨0, _⟩ => show win0_2.index t (0 : Fin 2) * 128 + 1 * k.val = k.val; omega
  | ⟨1, _⟩ => show win0_2.index t (1 : Fin 2) * 256 + 1 * q.val = q.val; omega

/-- Entry (p, q) of the result block at point t lies at entry (`row t p`, q) of the result array. -/
theorem out_at (t : Fin cfg0.N) (p : Fin 5000) (q : Fin 256) :
    ((cfg0.win 3).blk t).view.emb (ix2 p q) = ix2 (row t p) q := by
  obtain ⟨-, -, -, -, -, -, -, e7⟩ := idx_facts t
  refine funext fun a => Fin.ext ?_
  match a with
  | ⟨0, _⟩ => show win0_3.index t (0 : Fin 2) * 5000 + 1 * p.val = win0_3.index t (0 : Fin 2) * 5000 + p.val; omega
  | ⟨1, _⟩ => show win0_3.index t (1 : Fin 2) * 256 + 1 * q.val = q.val; omega

/-- The body's stored block, computed from the blocks at point t of arbitrary arrays X, H and W, is block t of the
    dense stage of X, H and W. -/
theorem block_eq (X H : Vec Ideal S50000x128 .f32) (W : Vec Ideal S128x256 .f32) (t : Fin cfg0.N) :
    (cfg0.win 3).cut (grid0.coords t)
        (k0_pay1 (F := Ideal) (((cfg0.win 0).blk t).view.read (Elt Ideal) X) (((cfg0.win 1).blk t).view.read (Elt Ideal) H)
          (((cfg0.win 2).blk t).view.read (Elt Ideal) W))
      = ((cfg0.win 3).blk t).view.read (Elt Ideal) (Cert.Layer.layer X H W) := by
  funext j
  show k0_pay1 (F := Ideal) (((cfg0.win 0).blk t).view.read (Elt Ideal) X) (((cfg0.win 1).blk t).view.read (Elt Ideal) H)
      (((cfg0.win 2).blk t).view.read (Elt Ideal) W) j
    = Cert.Layer.layer X H W (((cfg0.win 3).blk t).view.emb j)
  obtain ⟨p, q, rfl⟩ : ∃ (p : Fin 5000) (q : Fin 256), j = ix2 p q := ⟨j 0, j 1, eq_ix2 j⟩
  rw [out_at t p q]
  exact (Cert.KernelIdeal.Body.payload_entry _ _ _ p q).trans
    (Cert.Layer.entry_of_rows X H _ _ W _ (row t) (read0_at X t) (read1_at H t) (read2_at W t) p q)

/-! ## The arrays the call finds -/

variable (m : (ℓ : Loc nD τ sig) → Buf (Elt Ideal) ℓ) (ρ : Dev nD → PrngReg)

/-- The three arrays the kernel call finds in its operands: node features, neighbour means, weights. -/
def xarr (c : Dev nD) : Vec Ideal S50000x128 .f32 := V m c (Pipeline.arrRef spec0 0)
def harr (c : Dev nD) : Vec Ideal S50000x128 .f32 := V m c (Pipeline.arrRef spec0 1)
def warr (c : Dev nD) : Vec Ideal S128x256 .f32 := V m c (Pipeline.arrRef spec0 2)

/-- Each input window's block at a point is that block of the array the call finds. -/
theorem iblk0 (c : Dev nD) (t : Fin cfg0.N) : iblk m c 0 t = ((cfg0.win 0).blk t).view.read (Elt Ideal) (xarr m c) := rfl
theorem iblk1 (c : Dev nD) (t : Fin cfg0.N) : iblk m c 1 t = ((cfg0.win 1).blk t).view.read (Elt Ideal) (harr m c) := rfl
theorem iblk2 (c : Dev nD) (t : Fin cfg0.N) : iblk m c 2 t = ((cfg0.win 2).blk t).view.read (Elt Ideal) (warr m c) := rfl

/-- What point t writes back is block t of the dense stage of the whole arrays. -/
theorem flushed_eq (c : Dev nD) (t : Fin cfg0.N) :
    (dats m 0 c).flushed 3 t
      = ((cfg0.win 3).blk t).view.read (Elt Ideal) (Cert.Layer.layer (xarr m c) (harr m c) (warr m c)) := by
  rw [Cert.KernelIdeal.Value.flushed3 m c t]
  unfold out0_3
  rw [View.canon_unit_zero origin]
  simp only [View.ld_unit_zero (S := S5000x128) origin, View.ld_unit_zero (S := S128x256) origin]
  rw [iblk0 m c t, iblk1 m c t, iblk2 m c t]
  exact block_eq (xarr m c) (harr m c) (warr m c) t

/-- An index of the result array is in point t's block iff each coordinate is in the block's range on its axis. -/
theorem mem_blk (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v19).slice (win0_3.rect t)).set ↔ _
  rw [View.set_slice_whole, Rect.mem_set_unit]
  exact Iff.rfl

/-- The ten blocks cover the result array: row r lies in the block of the point whose row-block index is r / 5000. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

/-- The result array after the call is the dense stage of the three arrays the call found. -/
theorem final (c : Dev nD) :
    (dats m 0 c).arrAt 3 cfg0.N = Cert.Layer.layer (xarr m c) (harr m c) (warr m c) :=
  (dats m 0 c).arrAt_eq_of_cover 3 _ (fun t _ => flushed_eq m c t) cover

end Cert.KernelIdeal.Blocks

end
-- ==== Proof.Neighbour.lean ====
import proofs.«173911_j46402826666668_1_alg».proof.Proof.Gen.KernelIdeal.Frame
import proofs.«173911_j46402826666668_1_alg».proof.Proof.Gen.ReferenceIdeal.Read
import Idealize.ShloMosaic.Lib.StableHlo.Run

/-!
  The neighbour mean. Before its one kernel call the kernel program computes, on the host, the mean of each node's
  in-neighbours' feature rows: negative source indices are wrapped by the node count, the source rows are gathered,
  scatter-added into the destination rows, and divided by the in-degree clipped below at one. The reference computes the
  same array by the same operations in the same order, so the array the kernel call finds in its second operand is the
  reference's neighbour mean of the same arguments.
-/

noncomputable section

namespace Cert.KernelIdeal.Neighbour

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 4000000 in
/-- The kernel call's second operand, as the call finds it, is the reference's neighbour mean of the node features and
    the two edge lists. -/
theorem mean_eq (c : Dev nD) :
    (V m c main_v18 : S50000x128.Idx → EReal)
      = Cert.ReferenceIdeal.Read.val_main_v18 (F := Ideal) (m ((c.tc : Thread nD τ).loc main_arg0))
          (m ((c.tc : Thread nD τ).loc main_arg2)) (m ((c.tc : Thread nD τ).loc main_arg3)) := by
  show StableHlo.after hostOps0 (fun b => m (c, b)) (Proc.devRef .tc main_v18) = _
  after_results_simp
  rfl

end Cert.KernelIdeal.Neighbour

end
-- ==== Proof.Result.lean ====
import proofs.«173911_j46402826666668_1_alg».proof.Proof.Gen.KernelIdeal.Value
import proofs.«173911_j46402826666668_1_alg».proof.Proof.Blocks
import proofs.«173911_j46402826666668_1_alg».proof.Proof.Neighbour

/-!
  The kernel program's run, read. The one kernel call leaves in the result array the dense stage of the three arrays
  it found; two of them are arguments no host operation wrote, and the third is the neighbour mean the host
  operations before the call computed. So the program ends with its result at the dense stage of the node features,
  their neighbour mean and the weights, all as functions of the arguments, and the arguments unchanged.
-/

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The node features and the weights reach the call as launched. -/
theorem xarr_eq (c : Dev nD) : Blocks.xarr m c = m ((c.tc : Thread nD τ).loc main_arg0) := V_main_arg0 m c
theorem warr_eq (c : Dev nD) : Blocks.warr m c = m ((c.tc : Thread nD τ).loc main_arg1) := V_main_arg1 m c

/-- The call's second operand is the reference's neighbour mean of the arguments. -/
theorem harr_eq (c : Dev nD) :
    Blocks.harr m c = Cert.ReferenceIdeal.Read.val_main_v18 (F := Ideal) (m ((c.tc : Thread nD τ).loc main_arg0))
      (m ((c.tc : Thread nD τ).loc main_arg2)) (m ((c.tc : Thread nD τ).loc main_arg3)) :=
  Neighbour.mean_eq m c

/-- The result array after the run, as a function of the arguments. -/
theorem final (c : Dev nD) :
    (dats m 0 c).arrAt 3 cfg0.N
      = Cert.Layer.layer (M := 50000) (m ((c.tc : Thread nD τ).loc main_arg0))
          (Cert.ReferenceIdeal.Read.val_main_v18 (F := Ideal) (m ((c.tc : Thread nD τ).loc main_arg0))
            (m ((c.tc : Thread nD τ).loc main_arg2)) (m ((c.tc : Thread nD τ).loc main_arg3)))
          (m ((c.tc : Thread nD τ).loc main_arg1)) := by
  rw [Blocks.final m c, xarr_eq, warr_eq, harr_eq]

/-- Every weakly fair execution of the kernel program ends with the result at the dense stage of the arguments and the
    arguments unchanged. -/
theorem run : θ_run defs (onTc (τ := τ) (main (F := Ideal))) ⟨m, fun _ => 0, ρ⟩ fun r => ∀ c : Dev nD,
      r.2.mem ((c.tc : Thread nD τ).loc main_v19)
        = Cert.Layer.layer (M := 50000) (m ((c.tc : Thread nD τ).loc main_arg0))
            (Cert.ReferenceIdeal.Read.val_main_v18 (F := Ideal) (m ((c.tc : Thread nD τ).loc main_arg0))
              (m ((c.tc : Thread nD τ).loc main_arg2)) (m ((c.tc : Thread nD τ).loc main_arg3)))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final m c), (h c).2⟩) (Cert.KernelIdeal.Value.run_blocks m ρ)

end Cert.KernelIdeal.Result

end
-- ==== Proof.RefDense.lean ====
import proofs.«173911_j46402826666668_1_alg».proof.Proof.Gen.ReferenceIdeal.Read
import proofs.«173911_j46402826666668_1_alg».proof.Proof.Layer
import Idealize.ShloMosaic.Lib.ValueIdx
import Idealize.ShloMosaic.PureOps.Ideal.Laws

/-!
  The reference's result, read at one entry. After the neighbour mean h the reference adds the node features, halves
  the sum, multiplies the whole 50000-row array by the weights in one matrix product, and clips at zero. At the ideal
  values the host's matrix product at entry (p, q) is the plain sum over the 128 contracted features, so the result
  array is the dense stage of the node features and the reference's own neighbour mean.
-/

open scoped BigOperators

noncomputable section

namespace Cert.ReferenceIdeal.Dense

open Cert.ReferenceIdeal Cert.ReferenceIdeal.Read Idealize.ShloMosaic Idealize.ShloMosaic.ValueIdx

/-- The left operand of the product at result entry (p, q) and contraction coordinate k is entry (p, k). -/
theorem lhs_at (p : Fin 50000) (q : Fin 256) (k : Fin 128) : lidx_main_v22 (ix2 p q) k = ix2 p k :=
  funext fun a => by match a with | ⟨0, _⟩ => rfl | ⟨1, _⟩ => rfl

/-- The right operand of the product at result entry (p, q) and contraction coordinate k is entry (k, q). -/
theorem rhs_at (p : Fin 50000) (q : Fin 256) (k : Fin 128) : ridx_main_v22 (ix2 p q) k = ix2 k q :=
  funext fun a => by match a with | ⟨0, _⟩ => rfl | ⟨1, _⟩ => rfl

/-- The reference's result is the dense stage of the node features x0, the neighbour mean it computed from x0 and the
    two edge lists, and the weights x1. -/
theorem result_eq (x0 : (⟨S50000x128, .f32⟩ : BufTy).Contents (Elt Ideal)) (x1 : (⟨S128x256, .f32⟩ : BufTy).Contents (Elt Ideal))
    (x2 x3 : (⟨S800000, .i32⟩ : BufTy).Contents (Elt Ideal)) :
    val_main_v23 (F := Ideal) x0 x1 x2 x3 = Cert.Layer.layer x0 (val_main_v18 (F := Ideal) x0 x2 x3) x1 := by
  funext i
  obtain ⟨p, q, rfl⟩ : ∃ (p : Fin 50000) (q : Fin 256), i = ix2 p q := ⟨i 0, i 1, eq_ix2 i⟩
  rw [val_main_v23_apply, val_main_v22_apply, val_main_call0_v0_apply, val_main_call0_cst_apply, Cert.Layer.layer_ix2]
  unfold Cert.Layer.entry
  simp only [lhs_at, rhs_at, val_main_v21_apply, val_main_v19_apply, val_main_v20_apply, val_main_cst_4_apply,
    Ideal.maximumf_def, Ideal.mulf_def, Ideal.addf_def, Ideal.ofBits_def]

end Cert.ReferenceIdeal.Dense

end
-- ==== Proof.lean ====
/-
  The kernel against its reference, for one graph layer: a node's features are averaged with the mean of its
  in-neighbours' features, multiplied by a weight matrix and clipped below at zero.

  Both programs compute the neighbour mean by the same host operations in the same order (a gather of the source rows,
  a scatter-add into the destination rows, a division by the clipped in-degree). They differ only in the dense stage:
  the kernel program runs it in one kernel call, block by block over 5000 rows at a time, casting both matrix operands
  to a narrower float format before a matrix product accumulated from zero; the reference runs it as whole-array host
  operations. At the ideal values a change of float format is the identity and both matrix products are the plain sum
  over the 128 contracted features, and a result row depends on its own feature rows only, so the ten blocks the kernel
  writes are the ten row blocks of the reference's result. No algebraic law beyond this re-reading is used, so the
  precondition is never opened.

  Proof/Layer.lean states the dense stage entry by entry; Proof/Payload.lean reads the kernel body's stored block at an
  entry (over Proof/LibPlainDot.lean, a plain matrix product as a sum); Proof/Blocks.lean goes from blocks to the array;
  Proof/Neighbour.lean identifies the two neighbour means; Proof/Result.lean restates the kernel program's run;
  Proof/RefDense.lean reads the reference's result. The three frames are the generated ones (the reference's is its
  generated run with the result dropped), and the idealization rewrote nothing.
-/
import proofs.«173911_j46402826666668_1_alg».proof.Defs
import proofs.«173911_j46402826666668_1_alg».proof.Proof.Gen.Kernel
import proofs.«173911_j46402826666668_1_alg».proof.Proof.Gen.Kernel.Skeleton
import proofs.«173911_j46402826666668_1_alg».proof.Proof.Gen.Kernel.Launch
import proofs.«173911_j46402826666668_1_alg».proof.Proof.Gen.Kernel.Points
import proofs.«173911_j46402826666668_1_alg».proof.Proof.Gen.Kernel.Frame
import proofs.«173911_j46402826666668_1_alg».proof.Proof.Gen.KernelIdeal
import proofs.«173911_j46402826666668_1_alg».proof.Proof.Gen.KernelIdeal.Skeleton
import proofs.«173911_j46402826666668_1_alg».proof.Proof.Gen.KernelIdeal.Launch
import proofs.«173911_j46402826666668_1_alg».proof.Proof.Gen.KernelIdeal.Points
import proofs.«173911_j46402826666668_1_alg».proof.Proof.Gen.KernelIdeal.Frame
import proofs.«173911_j46402826666668_1_alg».proof.Proof.Gen.ReferenceIdeal
import proofs.«173911_j46402826666668_1_alg».proof.Proof.Gen.Pre_finite_inputs
import proofs.«173911_j46402826666668_1_alg».proof.Proof.Gen.KernelIdeal.Value
import proofs.«173911_j46402826666668_1_alg».proof.Proof.Gen.ReferenceIdeal.Run
import proofs.«173911_j46402826666668_1_alg».proof.Proof.Gen.ReferenceIdeal.Read
import proofs.«173911_j46402826666668_1_alg».proof.Proof.Result
import proofs.«173911_j46402826666668_1_alg».proof.Proof.RefDense
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, the kernel program ends with its result at the dense stage of the
    node features, their neighbour mean and the weights, and the reference ends with its result at its composed term,
    which read entry by entry is the same dense stage of the same arrays. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v23_eq _ _ _ _).trans (Cert.ReferenceIdeal.Dense.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
